-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16 : Shape := ⟨1, ![16]⟩
abbrev S16x1024 : Shape := ⟨2, ![16, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S4x2048x1024 .f32) (main_arg1 : FVec F S16 .f32) (main_arg2 : FVec F S16x1024 .f32) (main_arg3 : FVec F S16 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S4x2048x1024 : Shape := ⟨3, ![4, 2048, 1024]⟩
abbrev S16 : Shape := ⟨1, ![16]⟩
abbrev S16x1024 : Shape := ⟨2, ![16, 1024]⟩
abbrev S1x16 : Shape := ⟨2, ![1, 16]⟩
abbrev S2048x4x16 : Shape := ⟨3, ![2048, 4, 16]⟩
abbrev S4x256x1024 : Shape := ⟨3, ![4, 256, 1024]⟩
abbrev S256x4x16 : Shape := ⟨3, ![256, 4, 16]⟩
abbrev S1x256x1024 : Shape := ⟨3, ![1, 256, 1024]⟩
abbrev S256x1024 : Shape := ⟨2, ![256, 1024]⟩
abbrev S256x16 : Shape := ⟨2, ![256, 16]⟩
abbrev S256x1x16 : Shape := ⟨3, ![256, 1, 16]⟩
abbrev S2047x4x16 : Shape := ⟨3, ![2047, 4, 16]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S16, .f32⟩
  | .hbm, ⟨2, _⟩ => ⟨S16x1024, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S2048x4x16, .f32⟩
  | .hbm, ⟨7, _⟩ => ⟨S2047x4x16, .f32⟩
  | .local _ .vmem, ⟨0, _⟩ => ⟨S4x256x1024, .f32⟩
  | .local _ .vmem, ⟨1, _⟩ => ⟨S4x256x1024, .f32⟩
  | .local _ .vmem, ⟨2, _⟩ => ⟨S16x1024, .f32⟩
  | .local _ .vmem, ⟨3, _⟩ => ⟨S1x16, .f32⟩
  | .local _ .vmem, ⟨4, _⟩ => ⟨S1x16, .f32⟩
  | .local _ .vmem, ⟨5, _⟩ => ⟨S256x4x16, .f32⟩
  | .local _ .vmem, ⟨6, _⟩ => ⟨S256x4x16, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  inb_S16x1024_S16x1024_0_0 : ∀ a, (![0, 0] : Fin 2 → Nat) a + S16x1024.size a ≤ S16x1024.size a
  h_S16x1024 : 0 < S16x1024.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  broadcasts_S1x16_S256x16 : S1x16.Broadcasts S256x16
  inb_S256x4x16_S256x1x16_0_0_0 : ∀ a, (![0, 0, 0] : Fin 3 → Nat) a + S256x1x16.size a ≤ S256x4x16.size a
  h_S256x1x16 : 0 < S256x1x16.numel
  shapeCasts_S256x1x16_S256x16 : S256x1x16.ShapeCasts S256x16
  shapeCasts_S256x16_S256x1x16 : S256x16.ShapeCasts S256x1x16
  inb_S4x256x1024_S1x256x1024_1_0_0 : ∀ a, (![1, 0, 0] : Fin 3 → Nat) a + S1x256x1024.size a ≤ S4x256x1024.size a
  inb_S256x4x16_S256x1x16_0_1_0 : ∀ a, (![0, 1, 0] : Fin 3 → Nat) a + S256x1x16.size a ≤ S256x4x16.size a
  inb_S4x256x1024_S1x256x1024_2_0_0 : ∀ a, (![2, 0, 0] : Fin 3 → Nat) a + S1x256x1024.size a ≤ S4x256x1024.size a
  inb_S256x4x16_S256x1x16_0_2_0 : ∀ a, (![0, 2, 0] : Fin 3 → Nat) a + S256x1x16.size a ≤ S256x4x16.size a
  inb_S4x256x1024_S1x256x1024_3_0_0 : ∀ a, (![3, 0, 0] : Fin 3 → Nat) a + S1x256x1024.size a ≤ S4x256x1024.size a
  inb_S256x4x16_S256x1x16_0_3_0 : ∀ a, (![0, 3, 0] : Fin 3 → Nat) a + S256x1x16.size a ≤ S256x4x16.size a
  slices_S2048x4x16_S2047x4x16_1_0_0 : S2048x4x16.Slices ![1, 0, 0] S2047x4x16
  dot_S256x1024_S16x1024_S256x16_1_1_0_0_n_n_wf : DotDims.WF S256x1024 S16x1024 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x2048x1024.size a
  hwx0_0 : ∀ i : grid0.Coords, EltTy.bits .f32 = 32 ∨ (Rect.block (s := S4x2048x1024) S4x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4x16.size a ≤ S2048x4x16.size a
  hwx0_4 : ∀ i : grid0.Coords, EltTy.bits .f32 = 32 ∨ (Rect.block (s := S2048x4x16) S256x4x16.size (cc0_transform_4 i) (hinb0_4 i)).WholeWords (EltTy.packing .f32)

variable [Facts₀]

def dot_S256x1024_S16x1024_S256x16_1_1_0_0_n_n : DotDims S256x1024 S16x1024 S256x16 where
  lhsContracting := [1]
  rhsContracting := [1]
  lhsNonContracting := [0]
  rhsNonContracting := [0]
  lhsBatch := []
  rhsBatch := []
  wf := dot_S256x1024_S16x1024_S256x16_1_1_0_0_n_n_wf

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x4x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16 : Shape := ⟨1, ![16]⟩
abbrev S16x1024 : Shape := ⟨2, ![16, 1024]⟩
abbrev S4x2047x1024 : Shape := ⟨3, ![4, 2047, 1024]⟩
abbrev S4x2047x16 : Shape := ⟨3, ![4, 2047, 16]⟩
abbrev S1x1x16 : Shape := ⟨3, ![1, 1, 16]⟩
abbrev S2047x4x16 : Shape := ⟨3, ![2047, 4, 16]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S16, .f32⟩
  | .hbm, ⟨2, _⟩ => ⟨S16x1024, .f32⟩
  | .hbm, ⟨3, _⟩ => ⟨S16, .f32⟩
  | .hbm, ⟨4, _⟩ => ⟨S4x2047x1024, .f32⟩
  | .hbm, ⟨5, _⟩ => ⟨S4x2047x16, .f32⟩
  | .hbm, ⟨6, _⟩ => ⟨S1x1x16, .f32⟩
  | .hbm, ⟨7, _⟩ => ⟨S4x2047x16, .f32⟩
  | .hbm, ⟨8, _⟩ => ⟨S4x2047x16, .f32⟩
  | .hbm, ⟨9, _⟩ => ⟨S1x1x16, .f32⟩
  | .hbm, ⟨10, _⟩ => ⟨S4x2047x16, .f32⟩
  | .hbm, ⟨11, _⟩ => ⟨S4x2047x16, .f32⟩
  | .hbm, ⟨12, _⟩ => ⟨S2047x4x16, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S4x2048x1024_S4x2047x1024_0_1_0 : S4x2048x1024.Slices ![0, 1, 0] S4x2047x1024
  bcast_S16_S1x1x16_2 : S16.BroadcastsInDim S1x1x16 (![2] : Fin 1 → Fin S1x1x16.rank)
  bcast_S1x1x16_S4x2047x16_0_1_2 : S1x1x16.BroadcastsInDim S4x2047x16 (![0, 1, 2] : Fin 3 → Fin S4x2047x16.rank)
  transposes_S4x2047x16_S2047x4x16_1_0_2 : S4x2047x16.Transposes [1, 0, 2] S2047x4x16
  dot_S4x2047x1024_S16x1024_S4x2047x16_2_1_01_0_n_n_wf : DotDims.WF S4x2047x1024 S16x1024 S4x2047x16 [2] [1] [0, 1] [0] [] []

variable [Facts₀]

def dot_S4x2047x1024_S16x1024_S4x2047x16_2_1_01_0_n_n : DotDims S4x2047x1024 S16x1024 S4x2047x16 where
  lhsContracting := [2]
  rhsContracting := [1]
  lhsNonContracting := [0, 1]
  rhsNonContracting := [0]
  lhsBatch := []
  rhsBatch := []
  wf := dot_S4x2047x1024_S16x1024_S4x2047x16_2_1_01_0_n_n_wf

class Facts : Prop extends Facts₀ where

variable [Facts]
-- ==== Proof.Spec.lean ====
/-
  The routing logits as ONE function of the four argument arrays, over the extended reals.

  For a batch row `bi`, a timestep `t` and an expert `e` the logit is the affine score of the token's feature
  vector against the expert's weight row, scaled by the expert's prior:
      logit bi t e = (Σ_d seq[bi, t, d] · W[e, d] + b[e]) · pi[e].
  The kernel computes it for every timestep and lays the result out [T, B, E]; the program then drops timestep 0.
  The reference drops timestep 0 of the sequence first, scores what is left, and transposes [B, T-1, E] to
  [T-1, B, E].  Both therefore end with `nextSteps`: entry (t, bi, e) is the logit of timestep `1 + t`.
  Nothing but the sum, one addition and one product is involved, so no law that fails at an infinity is needed:
  the two sides are the same expression term by term.
-/
import Idealize.ShloMosaic.PureOps.Ideal
import Idealize.ShloMosaic.Lib.ValueIdx

noncomputable section

open scoped BigOperators

namespace Cert.Router

open Idealize.ShloMosaic Idealize.ShloMosaic.ValueIdx

/-- The token sequence: batch × time × features. -/
abbrev SeqS : Shape := ⟨3, ![4, 2048, 1024]⟩
/-- The experts' weight rows: expert × features. -/
abbrev WS : Shape := ⟨2, ![16, 1024]⟩
/-- One number per expert (the prior `pi`, the bias `b`). -/
abbrev ES : Shape := ⟨1, ![16]⟩
/-- Logits for every timestep: time × batch × expert. -/
abbrev AllS : Shape := ⟨3, ![2048, 4, 16]⟩
/-- Logits for the timesteps after the first: (time − 1) × batch × expert. -/
abbrev NextS : Shape := ⟨3, ![2047, 4, 16]⟩

/-- One routing logit: the score of token (bi, t) against expert `e`, plus the expert's bias, times its prior. -/
def logit (seq : SeqS.Idx → EReal) (W : WS.Idx → EReal) (pi b : ES.Idx → EReal)
    (bi : Fin 4) (t : Fin 2048) (e : Fin 16) : EReal :=
  ((∑ k : Fin 1024, seq (ix3 bi t k) * W (ix2 e k)) + b (ix1 e)) * pi (ix1 e)

/-- The logits of every timestep, laid out time × batch × expert. -/
def allSteps (seq : SeqS.Idx → EReal) (W : WS.Idx → EReal) (pi b : ES.Idx → EReal) : AllS.Idx → EReal :=
  fun i => logit seq W pi b (i 1) (i 0) (i 2)

/-- The logits of timesteps 1 … 2047: entry (t, bi, e) is the logit of timestep `1 + t`. -/
def nextSteps (seq : SeqS.Idx → EReal) (W : WS.Idx → EReal) (pi b : ES.Idx → EReal) : NextS.Idx → EReal :=
  fun i => logit seq W pi b (i 1)
    ⟨1 + (i 0).val, by have h : (i 0).val < 2047 := (i 0).isLt; omega⟩ (i 2)

/-- Dropping the first timestep of `allSteps` leaves `nextSteps`. -/
theorem allSteps_shift (seq : SeqS.Idx → EReal) (W : WS.Idx → EReal) (pi b : ES.Idx → EReal)
    (i : NextS.Idx) (k : AllS.Idx) (h0 : (k 0).val = 1 + (i 0).val) (h1 : (k 1).val = (i 1).val)
    (h2 : (k 2).val = (i 2).val) : allSteps seq W pi b k = nextSteps seq W pi b i := by
  unfold allSteps nextSteps
  have e0 : k 0 = ⟨1 + (i 0).val, by have h : (i 0).val < 2047 := (i 0).isLt; omega⟩ := Fin.ext h0
  have e1 : k 1 = i 1 := Fin.ext h1
  have e2 : k 2 = i 2 := Fin.ext h2
  rw [e0, e1, e2]
  rfl

end Cert.Router

end
-- ==== Proof.RefSide.lean ====
/-
  The reference, read at one entry.

  The reference slices timestep 0 off the sequence, contracts the feature axis against the weight rows, adds the bias
  and multiplies by the prior (both broadcast along batch and time), and transposes [B, T-1, E] to [T-1, B, E].
  Read at entry (t, bi, e) each stage names one entry of its operand; composed, the entry is the logit of token
  (bi, 1 + t) against expert e: the program's result is `nextSteps`.
-/
import proofs.«100767_g24249385353843_cont_9to1_321_3_alg».proof.Proof.Gen.ReferenceIdeal.Read
import proofs.«100767_g24249385353843_cont_9to1_321_3_alg».proof.Proof.Spec

noncomputable section

open scoped BigOperators

namespace Cert.Router.Ref

open Idealize.ShloMosaic Idealize.ShloMosaic.ValueIdx Cert.ReferenceIdeal Cert.ReferenceIdeal.Read Cert.Router

/-- The sliced sequence read where the contraction reads it, under the transpose: token (bi, 1 + t), feature k. -/
theorem seq_index (i : S2047x4x16.Idx) (k : Fin 1024) :
    idx_main_v0 (lidx_main_v1 (idx_main_v8 i) k)
      = ix3 (i 1) ⟨1 + (i 0).val, by have h : (i 0).val < 2047 := (i 0).isLt; omega⟩ k :=
  funext fun a => Fin.ext (by match a with | ⟨0, _⟩ => rfl | ⟨1, _⟩ => rfl | ⟨2, _⟩ => rfl)

/-- The weight row the contraction reads: expert e, feature k. -/
theorem weight_index (i : S2047x4x16.Idx) (k : Fin 1024) : ridx_main_v1 (idx_main_v8 i) k = ix2 (i 2) k :=
  funext fun a => Fin.ext (by match a with | ⟨0, _⟩ => rfl | ⟨1, _⟩ => rfl)

/-- The bias entry the two broadcasts read: expert e. -/
theorem bias_index (i : S2047x4x16.Idx) : idx_main_v2 (idx_main_v3 (idx_main_v8 i)) = ix1 (i 2) :=
  funext fun a => Fin.ext (by match a with | ⟨0, _⟩ => rfl)

/-- The prior entry the two broadcasts read: expert e. -/
theorem prior_index (i : S2047x4x16.Idx) : idx_main_v5 (idx_main_v6 (idx_main_v8 i)) = ix1 (i 2) :=
  funext fun a => Fin.ext (by match a with | ⟨0, _⟩ => rfl)

/-- The reference's result is `nextSteps` of its arguments (sequence, prior, weights, bias in the program's order). -/
theorem result_eq (x0 : SeqS.Idx → EReal) (x1 : ES.Idx → EReal) (x2 : WS.Idx → EReal) (x3 : ES.Idx → EReal) :
    val_main_v8 (F := Ideal) x0 x1 x2 x3 = nextSteps x0 x2 x1 x3 := by
  funext i
  rw [val_main_v8_apply, val_main_v7_apply, val_main_v4_apply, val_main_v1_apply, val_main_v3_apply,
    val_main_v2_apply, val_main_v6_apply, val_main_v5_apply]
  simp only [val_main_v0_apply, seq_index, weight_index, bias_index, prior_index]
  rfl

end Cert.Router.Ref

end
-- ==== Proof.KernelPayload.lean ====
/-
  What one store of the kernel body holds, read at one entry.

  For each of the four batch rows the body takes that row's [256, 1024] tile of tokens, contracts the feature axis
  against the [16, 1024] weight rows into a zero accumulator, adds the bias row and multiplies by the prior row (each
  [1, 16], broadcast down the 256 tokens), and stores the [256, 16] result as a [256, 1, 16] slab.  All four stores
  hold the same function `rowLogits` of the weights, the two rows and the batch row's tile; read at (r, ·, e) it is
      (Σ_k tile[·, r, k] · W[e, k] + bias[·, e]) · prior[·, e].
-/
import proofs.«100767_g24249385353843_cont_9to1_321_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Router.Body

open Idealize.ShloMosaic Idealize.ShloMosaic.ValueIdx Cert.KernelIdeal Cert.KernelIdeal.Gen

section AnyInstance
variable {F : FTy → Type} [FloatOps F]

/-- One batch row's slab of logits, as the body computes it from the weight block `w`, the prior row `p`, the bias
    row `c` and the batch row's token tile `x`. -/
def rowLogits (w : Vec F S16x1024 .f32) (p : FVec F S1x16 .f32) (c : FVec F S1x16 .f32) (x : Vec F S1x256x1024 .f32) :
    FVec F S256x1x16 .f32 :=
  shapeCast S256x1x16
    (mulf (addf (matmul dot_S256x1024_S16x1024_S256x16_1_1_0_0_n_n none
        (shapeCast S256x1024 x Facts₀.shapeCasts_S1x256x1024_S256x1024) w (constant S256x16 .f32 0x00000000#32))
      (broadcastTo S256x16 c Facts₀.broadcasts_S1x16_S256x16)) (broadcastTo S256x16 p Facts₀.broadcasts_S1x16_S256x16))
    Facts₀.shapeCasts_S256x16_S256x1x16

/-- The four stores' payloads are that one function (the prior and bias rows pass through a cast to their own shape). -/
theorem pay_row0 (w : Vec F S16x1024 .f32) (p c : Vec F S1x16 .f32) (x : Vec F S1x256x1024 .f32) :
    k0_pay5 w p c x = rowLogits w (k0_pay3 p) (k0_pay4 c) x := rfl
theorem pay_row1 (w : Vec F S16x1024 .f32) (p c : Vec F S1x16 .f32) (x : Vec F S1x256x1024 .f32) :
    k0_pay6 w p c x = rowLogits w (k0_pay3 p) (k0_pay4 c) x := rfl
theorem pay_row2 (w : Vec F S16x1024 .f32) (p c : Vec F S1x16 .f32) (x : Vec F S1x256x1024 .f32) :
    k0_pay1 (k0_pay7 w p c x) = rowLogits w (k0_pay3 p) (k0_pay4 c) x := rfl
theorem pay_row3 (w : Vec F S16x1024 .f32) (p c : FVec F S1x16 .f32) (x : Vec F S1x256x1024 .f32) :
    k0_pay2 w p c x = rowLogits w p c x := rfl

/-- A row cast to its own shape is itself. -/
theorem prior_row (p : Vec F S1x16 .f32) : k0_pay3 p = p := shapeCast_self p Facts₀.shapeCasts_S1x16_S1x16
theorem bias_row (c : Vec F S1x16 .f32) : k0_pay4 c = c := shapeCast_self c Facts₀.shapeCasts_S1x16_S1x16

end AnyInstance

/-! ## The layout operations at an entry -/

/-- The [256, 16] result viewed as a [256, 1, 16] slab: entry (r, z, e) is entry (r, e). -/
theorem slab_apply (y : S256x16.Idx → EReal) (r : Fin 256) (z : Fin 1) (e : Fin 16) :
    shapeCast S256x1x16 y Facts₀.shapeCasts_S256x16_S256x1x16 (ix3 r z e) = y (ix2 r e) :=
  shapeCast_apply y Facts₀.shapeCasts_S256x16_S256x1x16 (ix3 r z e) (ix2 r e) (by
    rw [Shape.rowMajor_val_two, Shape.rowMajor_val_three]
    show r.val * 16 + e.val = (r.val * 1 + z.val) * 16 + e.val
    have := z.isLt; omega)

/-- The [1, 256, 1024] tile viewed as [256, 1024]: entry (r, k) is entry (0, r, k). -/
theorem tile_apply (x : S1x256x1024.Idx → EReal) (r : Fin 256) (k : Fin 1024) :
    shapeCast S256x1024 x Facts₀.shapeCasts_S1x256x1024_S256x1024 (ix2 r k) = x (ix3 0 r k) :=
  shapeCast_apply x Facts₀.shapeCasts_S1x256x1024_S256x1024 (ix2 r k) (ix3 0 r k) (by
    rw [Shape.rowMajor_val_two, Shape.rowMajor_val_three]
    show (0 * 256 + r.val) * 1024 + k.val = r.val * 1024 + k.val
    omega)

/-- A [1, 16] row broadcast down 256 tokens: entry (r, e) is the row's entry (0, e). -/
theorem row_apply (v : S1x16.Idx → EReal) (r : Fin 256) (e : Fin 16) :
    broadcastTo S256x16 v Facts₀.broadcasts_S1x16_S256x16 (ix2 r e) = v (ix2 0 e) :=
  broadcastTo_apply v Facts₀.broadcasts_S1x16_S256x16 (ix2 r e) (ix2 0 e) (fun a => match a with
    | ⟨0, _⟩ => by show 0 = if (1 : Nat) = 1 then 0 else _; rw [if_pos rfl]
    | ⟨1, _⟩ => by show e.val = if (16 : Nat) = 1 then 0 else e.val; rw [if_neg (by decide)])

/-! ## The contraction at an entry -/

theorem lhs_scores_0 (i : S256x16.Idx) (q : dot_S256x1024_S16x1024_S256x16_1_1_0_0_n_n.contr.Idx) :
    (dot_S256x1024_S16x1024_S256x16_1_1_0_0_n_n.lhsIdx i q 0).val = (i 0).val := by
  unfold DotDims.lhsIdx
  rw [dif_neg (show ¬(0 : Fin S256x1024.rank) ∈ dot_S256x1024_S16x1024_S256x16_1_1_0_0_n_n.lhsBatch by decide), dif_pos (show (0 : Fin S256x1024.rank) ∈ dot_S256x1024_S16x1024_S256x16_1_1_0_0_n_n.lhsNonContracting by decide)]
  rfl
theorem lhs_scores_1 (i : S256x16.Idx) (q : dot_S256x1024_S16x1024_S256x16_1_1_0_0_n_n.contr.Idx) :
    (dot_S256x1024_S16x1024_S256x16_1_1_0_0_n_n.lhsIdx i q 1).val = (q ⟨0, by decide⟩).val :=
  dot_S256x1024_S16x1024_S256x16_1_1_0_0_n_n.lhsIdx_val_of_single rfl i q
theorem rhs_scores_0 (i : S256x16.Idx) (q : dot_S256x1024_S16x1024_S256x16_1_1_0_0_n_n.contr.Idx) :
    (dot_S256x1024_S16x1024_S256x16_1_1_0_0_n_n.rhsIdx i q 0).val = (i 1).val := by
  unfold DotDims.rhsIdx
  rw [dif_neg (show ¬(0 : Fin S16x1024.rank) ∈ dot_S256x1024_S16x1024_S256x16_1_1_0_0_n_n.rhsBatch by decide), dif_pos (show (0 : Fin S16x1024.rank) ∈ dot_S256x1024_S16x1024_S256x16_1_1_0_0_n_n.rhsNonContracting by decide)]
  rfl
theorem rhs_scores_1 (i : S256x16.Idx) (q : dot_S256x1024_S16x1024_S256x16_1_1_0_0_n_n.contr.Idx) :
    (dot_S256x1024_S16x1024_S256x16_1_1_0_0_n_n.rhsIdx i q 1).val = (q ⟨0, by decide⟩).val :=
  dot_S256x1024_S16x1024_S256x16_1_1_0_0_n_n.rhsIdx_val_of_single rfl i q

/-- The tile times the transposed weights into a zero accumulator, at (r, e): the sum over the features of token r's
    feature times expert e's weight. -/
theorem scores_apply (x : FVec Ideal S256x1024 .f32) (w : FVec Ideal S16x1024 .f32) (r : Fin 256) (e : Fin 16) :
    matmul (F := Ideal) dot_S256x1024_S16x1024_S256x16_1_1_0_0_n_n none x w (constant S256x16 .f32 0x00000000#32) (ix2 r e)
      = ∑ k : Fin 1024, x (ix2 r k) * w (ix2 e k) := by
  simp only [matmul]
  rw [Ideal.matmul_constant_zero_apply, ← Equiv.sum_comp (contrEquiv1 dot_S256x1024_S16x1024_S256x16_1_1_0_0_n_n 1024 rfl rfl).symm]
  refine Finset.sum_congr rfl fun k _ => ?_
  have hk := contrEquiv1_symm_val dot_S256x1024_S16x1024_S256x16_1_1_0_0_n_n 1024 rfl rfl k
  have el : dot_S256x1024_S16x1024_S256x16_1_1_0_0_n_n.lhsIdx (ix2 r e) ((contrEquiv1 dot_S256x1024_S16x1024_S256x16_1_1_0_0_n_n 1024 rfl rfl).symm k) = ix2 r k := funext fun a => Fin.ext (by
    match a with
    | ⟨0, _⟩ => exact lhs_scores_0 _ _
    | ⟨1, _⟩ => exact (lhs_scores_1 _ _).trans hk)
  have er : dot_S256x1024_S16x1024_S256x16_1_1_0_0_n_n.rhsIdx (ix2 r e) ((contrEquiv1 dot_S256x1024_S16x1024_S256x16_1_1_0_0_n_n 1024 rfl rfl).symm k) = ix2 e k := funext fun a => Fin.ext (by
    match a with
    | ⟨0, _⟩ => exact rhs_scores_0 _ _
    | ⟨1, _⟩ => exact (rhs_scores_1 _ _).trans hk)
  rw [el, er]

/-! ## One slab at an entry -/

/-- Entry (r, z, e) of a batch row's slab: token r's score against expert e, plus the bias, times the prior. -/
theorem rowLogits_apply (w : S16x1024.Idx → EReal) (p c : S1x16.Idx → EReal) (x : S1x256x1024.Idx → EReal)
    (r : Fin 256) (z : Fin 1) (e : Fin 16) :
    rowLogits (F := Ideal) w p c x (ix3 r z e)
      = ((∑ k : Fin 1024, x (ix3 0 r k) * w (ix2 e k)) + c (ix2 0 e)) * p (ix2 0 e) := by
  unfold rowLogits
  rw [slab_apply, mulf_apply, addf_apply, scores_apply, row_apply, row_apply]
  simp only [tile_apply]

end Cert.Router.Body

end
-- ==== Proof.KernelBlock.lean ====
/-
  What one grid point leaves in the output's staging buffer.

  At a grid point the body finds a [4, 256, 1024] block of tokens (all four batch rows, 256 timesteps), the whole
  weight matrix, and the prior and bias rows.  For batch row `bi` it loads the row's [1, 256, 1024] tile and stores the
  row's [256, 1, 16] slab at offset (0, bi, 0) of the [256, 4, 16] buffer.  The four slabs tile the buffer, and each is
  the restriction of ONE function of the buffer's index, `blockLogits`: entry (r, bi, e) is
      (Σ_k tokens[bi, r, k] · W[e, k] + bias[0, e]) · prior[0, e].
  So the buffer ends holding `blockLogits` whatever order the stores came in.
-/
import proofs.«100767_g24249385353843_cont_9to1_321_3_alg».proof.Proof.Gen.KernelIdeal.Frame
import proofs.«100767_g24249385353843_cont_9to1_321_3_alg».proof.Proof.KernelPayload

set_option maxRecDepth 16384

noncomputable section

open scoped BigOperators

namespace Cert.Router.Body

open Idealize.ShloMosaic Idealize.ShloMosaic.ValueIdx Cert.KernelIdeal Cert.KernelIdeal.Gen

/-- A grid point's [256, 4, 16] block of logits from its token block `x0`, the weights `x1`, the prior row `x2`
    and the bias row `x3`. -/
def blockLogits (x0 : S4x256x1024.Idx → EReal) (x1 : S16x1024.Idx → EReal) (x2 x3 : S1x16.Idx → EReal) :
    S256x4x16.Idx → EReal :=
  fun y => ((∑ k : Fin 1024, x0 (ix3 (y 1) (y 0) k) * x1 (ix2 (y 2) k)) + x3 (ix2 0 (y 2))) * x2 (ix2 0 (y 2))

theorem zeros2 : (![0, 0] : Fin 2 → Nat) = fun _ => 0 := funext fun a => by fin_cases a <;> rfl

/-- Batch row `bi`'s slab, computed from the row's tile loaded at offset (bi, 0, 0), is `blockLogits` under the
    rectangle the slab is stored through, at offset (0, bi, 0). -/
theorem slab_eq (bi : Fin 4)
    (inbL : ∀ a, (![bi.val, 0, 0] : Fin 3 → Nat) a + S1x256x1024.size a ≤ S4x256x1024.size a)
    (inbS : ∀ a, (![0, bi.val, 0] : Fin 3 → Nat) a + S256x1x16.size a ≤ S256x4x16.size a)
    (x0 : Vec Ideal S4x256x1024 .f32) (x1 : Vec Ideal S16x1024 .f32) (x2 x3 : Vec Ideal S1x16 .f32) (x : S256x1x16.Idx) :
    rowLogits (F := Ideal) x1 x2 x3 (View.ld x0 (Rect.unit (s := S4x256x1024) ![bi.val, 0, 0] S1x256x1024.size inbL)) x
      = blockLogits x0 x1 x2 x3 ((Rect.unit (s := S256x4x16) ![0, bi.val, 0] S256x1x16.size inbS).emb x) := by
  obtain ⟨r, z, e, rfl⟩ : ∃ (r : Fin 256) (z : Fin 1) (e : Fin 16), x = ix3 r z e := ⟨x 0, x 1, x 2, eq_ix3 x⟩
  rw [rowLogits_apply]
  unfold blockLogits
  have h0 : (Rect.unit (s := S256x4x16) ![0, bi.val, 0] S256x1x16.size inbS).emb (ix3 r z e) 0 = r :=
    Fin.ext (by show 0 + 1 * r.val = r.val; omega)
  have h1 : (Rect.unit (s := S256x4x16) ![0, bi.val, 0] S256x1x16.size inbS).emb (ix3 r z e) 1 = bi :=
    Fin.ext (by show bi.val + 1 * z.val = bi.val; have := z.isLt; omega)
  have h2 : (Rect.unit (s := S256x4x16) ![0, bi.val, 0] S256x1x16.size inbS).emb (ix3 r z e) 2 = e :=
    Fin.ext (by show 0 + 1 * e.val = e.val; omega)
  have hl : ∀ k : Fin 1024,
      View.ld x0 (Rect.unit (s := S4x256x1024) ![bi.val, 0, 0] S1x256x1024.size inbL) (ix3 0 r k) = x0 (ix3 bi r k) :=
    by
    intro k
    show x0 ((Rect.unit (s := S4x256x1024) ![bi.val, 0, 0] S1x256x1024.size inbL).idx (ix3 0 r k)) = x0 (ix3 bi r k)
    refine congrArg x0 (funext fun a => Fin.ext ?_)
    match a with
    | ⟨0, _⟩ => show bi.val + 1 * 0 = bi.val; omega
    | ⟨1, _⟩ => show 0 + 1 * r.val = r.val; omega
    | ⟨2, _⟩ => show 0 + 1 * k.val = k.val; omega
  rw [h0, h1, h2]
  simp only [hl]

/-- THE BLOCK: what the four stores leave in the output's buffer is `blockLogits` of the input blocks. -/
theorem out_eq (x0 : Vec Ideal S4x256x1024 .f32) (x1 : Vec Ideal S16x1024 .f32) (x2 x3 : Vec Ideal S1x16 .f32) :
    out0_4 (F := Ideal) x0 x1 x2 x3 = blockLogits x0 x1 x2 x3 := by
  funext y
  unfold out0_4
  refine View.canon_apply_of_pieces (Val := Elt Ideal) (blockLogits x0 x1 x2 x3) _ ?_ y (cover0_4 _ _ _ _ y)
  intro p hp x
  simp only [List.mem_cons, List.not_mem_nil, or_false] at hp
  have hw : View.ld x1 r0_0 = x1 := View.ld_unit_zero (S := S16x1024) zeros2 _ x1
  have hp2 : View.ld x2 r0_1 = x2 := View.ld_unit_zero (S := S1x16) zeros2 _ x2
  have hb : View.ld x3 r0_1 = x3 := View.ld_unit_zero (S := S1x16) zeros2 _ x3
  rcases hp with rfl | rfl | rfl | rfl
  · show k0_pay2 (View.ld x1 r0_0) (k0_pay3 (View.ld x2 r0_1)) (k0_pay4 (View.ld x3 r0_1)) (View.ld x0 r0_8) x = _
    rw [pay_row3, prior_row, bias_row, hw, hp2, hb]
    exact slab_eq 3 Facts₀.inb_S4x256x1024_S1x256x1024_3_0_0 Facts₀.inb_S256x4x16_S256x1x16_0_3_0 x0 x1 x2 x3 x
  · show k0_pay1 (k0_pay7 (View.ld x1 r0_0) (View.ld x2 r0_1) (View.ld x3 r0_1) (View.ld x0 r0_6)) x = _
    rw [pay_row2, prior_row, bias_row, hw, hp2, hb]
    exact slab_eq 2 Facts₀.inb_S4x256x1024_S1x256x1024_2_0_0 Facts₀.inb_S256x4x16_S256x1x16_0_2_0 x0 x1 x2 x3 x
  · show k0_pay6 (View.ld x1 r0_0) (View.ld x2 r0_1) (View.ld x3 r0_1) (View.ld x0 r0_4) x = _
    rw [pay_row1, prior_row, bias_row, hw, hp2, hb]
    exact slab_eq 1 Facts₀.inb_S4x256x1024_S1x256x1024_1_0_0 Facts₀.inb_S256x4x16_S256x1x16_0_1_0 x0 x1 x2 x3 x
  · show k0_pay5 (View.ld x1 r0_0) (View.ld x2 r0_1) (View.ld x3 r0_1) (View.ld x0 r0_2) x = _
    rw [pay_row0, prior_row, bias_row, hw, hp2, hb]
    exact slab_eq 0 Facts₀.inb_S4x256x1024_S1x256x1024_0_0_0 Facts₀.inb_S256x4x16_S256x1x16_0_0_0 x0 x1 x2 x3 x

end Cert.Router.Body

end
-- ==== Proof.KernelArray.lean ====
/-
  From blocks to the whole array.

  The grid has eight points; point t stages timesteps [256·t, 256·t + 256) of the sequence for all four batch rows,
  the whole weight matrix and the two [1, 16] rows (the prior and the bias, each the corresponding argument vector
  viewed as one row), and writes back rows [256·t, 256·t + 256) of the [2048, 4, 16] result.  So what point t writes back
  is the restriction of `allSteps` of the argument arrays to its block, the eight blocks cover the array, and the
  array after the region is `allSteps`.
-/
import proofs.«100767_g24249385353843_cont_9to1_321_3_alg».proof.Proof.Gen.KernelIdeal.Frame
import proofs.«100767_g24249385353843_cont_9to1_321_3_alg».proof.Proof.KernelBlock
import proofs.«100767_g24249385353843_cont_9to1_321_3_alg».proof.Proof.Spec
import Idealize.ShloMosaic.Lib.Pipeline.Value
import Idealize.ShloMosaic.Lib.StableHlo.Run

set_option maxRecDepth 16384

noncomputable section

open scoped BigOperators

namespace Cert.Router.Array

open Idealize.ShloMosaic Idealize.ShloMosaic.TcCoe Idealize.ShloMosaic.ValueIdx Idealize.SL.Sem
open Cert.KernelIdeal Cert.KernelIdeal.Gen Cert.Router Cert.Router.Body

variable (m : (ℓ : Loc nD τ sig) → Buf (Elt Ideal) ℓ)

/-! ## Pure statements: a block entry and an array entry as logits -/

/-- Entry (r, bi, e) of a point's block, when the point's token block is rows [256·q, 256·q + 256) of the sequence and
    its other blocks are the weights and the two rows: the logit of token (bi, 256·q + r) against expert e. -/
theorem block_entry (seq : SeqS.Idx → EReal) (W : WS.Idx → EReal) (pi b : ES.Idx → EReal)
    (x0 : S4x256x1024.Idx → EReal) (x1 : S16x1024.Idx → EReal) (x2 x3 : S1x16.Idx → EReal) (q : Nat) (hq : q < 8)
    (h0 : ∀ (bi : Fin 4) (r : Fin 256) (k : Fin 1024),
      x0 (ix3 bi r k) = seq (ix3 bi ⟨q * 256 + r.val, by have := r.isLt; omega⟩ k))
    (h1 : ∀ (e : Fin 16) (k : Fin 1024), x1 (ix2 e k) = W (ix2 e k))
    (h2 : ∀ e : Fin 16, x2 (ix2 0 e) = pi (ix1 e)) (h3 : ∀ e : Fin 16, x3 (ix2 0 e) = b (ix1 e))
    (r : Fin 256) (bi : Fin 4) (e : Fin 16) :
    blockLogits x0 x1 x2 x3 (ix3 r bi e)
      = logit seq W pi b bi ⟨q * 256 + r.val, by have := r.isLt; omega⟩ e := by
  show ((∑ k : Fin 1024, x0 (ix3 bi r k) * x1 (ix2 e k)) + x3 (ix2 0 e)) * x2 (ix2 0 e)
    = ((∑ k : Fin 1024, seq (ix3 bi ⟨q * 256 + r.val, _⟩ k) * W (ix2 e k)) + b (ix1 e)) * pi (ix1 e)
  simp only [h0, h1, h2, h3]

/-- An entry of `allSteps` named by its coordinates. -/
theorem allSteps_entry (seq : SeqS.Idx → EReal) (W : WS.Idx → EReal) (pi b : ES.Idx → EReal) (i : AllS.Idx)
    (bi : Fin 4) (s : Fin 2048) (e : Fin 16) (h0 : (i 0).val = s.val) (h1 : (i 1).val = bi.val) (h2 : (i 2).val = e.val) :
    allSteps seq W pi b i = logit seq W pi b bi s e := by
  unfold allSteps
  have e0 : i 0 = s := Fin.ext h0
  have e1 : i 1 = bi := Fin.ext h1
  have e2 : i 2 = e := Fin.ext h2
  rw [e0, e1, e2]

/-! ## The two rows the region finds -/

/-- The prior row as the region finds it: the prior vector viewed [1, 16]. -/
theorem prior_arr (c : Dev nD) :
    (V m c main_v0 : S1x16.Idx → EReal) = shapeCast S1x16 (m ((c : Thread nD τ).loc main_arg1)) Facts₀.shapeCasts_S16_S1x16 := by
  show StableHlo.after hostOps0 (fun b => m (c, b)) (Proc.devRef .tc main_v0) = _
  after_results
  rfl

/-- The bias row as the region finds it: the bias vector viewed [1, 16]. -/
theorem bias_arr (c : Dev nD) :
    (V m c main_v1 : S1x16.Idx → EReal) = shapeCast S1x16 (m ((c : Thread nD τ).loc main_arg3)) Facts₀.shapeCasts_S16_S1x16 := by
  show StableHlo.after hostOps0 (fun b => m (c, b)) (Proc.devRef .tc main_v1) = _
  after_results
  rfl

/-- A vector viewed as one row, at (z, e): the vector's entry e. -/
theorem asRow_apply (v : S16.Idx → EReal) (j : S1x16.Idx) (e : Fin 16) (h0 : (j 0).val = 0) (h1 : (j 1).val = e.val) :
    shapeCast S1x16 v Facts₀.shapeCasts_S16_S1x16 j = v (ix1 e) :=
  shapeCast_apply v Facts₀.shapeCasts_S16_S1x16 j (ix1 e) (by
    rw [Shape.rowMajor_val_one, Shape.rowMajor_val_two]
    show e.val = (j 0).val * 16 + (j 1).val
    omega)

/-! ## The schedule -/

/-- The printed index maps, decided over the grid: the token block moves along the time axis with the output block and
    sits at 0 on the other axes; the weights and the two rows never move; the output block's index is below 8 on the
    time axis and 0 elsewhere. -/
theorem idx_facts : ∀ t : Fin cfg0.N,
    win0_0.index t (0 : Fin 3) = 0 ∧ win0_0.index t (1 : Fin 3) = win0_4.index t (0 : Fin 3) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 8 ∧ win0_4.index t (1 : Fin 3) = 0 ∧ win0_4.index t (2 : Fin 3) = 0 :=
  (by decide +kernel : ∀ t : Fin grid0.N, _)

/-- Every 256-row band of the result is some point's block. -/
theorem idx_onto : ∀ q : Fin 8, ∃ t : Fin cfg0.N, win0_4.index t = ![q.val, 0, 0] :=
  (by decide +kernel : ∀ q : Fin 8, ∃ t : Fin grid0.N, win0_4.index t = ![q.val, 0, 0])

/-! ## What a point writes back -/

/-- WHAT POINT t WRITES BACK is block t of `allSteps` of the argument arrays. -/
theorem flushed_eq (c : Dev nD) (t : Fin cfg0.N) :
    (dats m 0 c).flushed 4 t = ((cfg0.win 4).blk t).view.read (Elt Ideal)
      (allSteps (m ((c : Thread nD τ).loc main_arg0)) (m ((c : Thread nD τ).loc main_arg2))
        (m ((c : Thread nD τ).loc main_arg1)) (m ((c : Thread nD τ).loc main_arg3))) := by
  show (cfg0.win 4).cut (grid0.coords t) ((dats m 0 c).after 4 t) = _
  rw [after0_4, out_eq]
  obtain ⟨f00, f01, f02, f10, f11, f20, f21, f30, f31, f4lt, f41, f42⟩ := idx_facts t
  funext j
  have hj0 : (j 0).val < 256 := (j 0).isLt
  have hj1 : (j 1).val < 4 := (j 1).isLt
  have hj2 : (j 2).val < 16 := (j 2).isLt
  have hx : (cfg0.win 4).xinj (grid0.coords t) j = ix3 (⟨(j 0).val, hj0⟩ : Fin 256) (⟨(j 1).val, hj1⟩ : Fin 4) (⟨(j 2).val, hj2⟩ : Fin 16) :=
    funext fun a => by match a with | ⟨0, _⟩ => rfl | ⟨1, _⟩ => rfl | ⟨2, _⟩ => rfl
  show blockLogits (iblk m c 0 t) (iblk m c 1 t) (iblk m c 2 t) (iblk m c 3 t) ((cfg0.win 4).xinj (grid0.coords t) j)
    = allSteps _ _ _ _ (((cfg0.win 4).blk t).view.emb j)
  rw [hx]
  refine (block_entry (m ((c : Thread nD τ).loc main_arg0)) (m ((c : Thread nD τ).loc main_arg2))
      (m ((c : Thread nD τ).loc main_arg1)) (m ((c : Thread nD τ).loc main_arg3))
      (iblk m c 0 t) (iblk m c 1 t) (iblk m c 2 t) (iblk m c 3 t) (win0_4.index t (0 : Fin 3)) f4lt ?_ ?_ ?_ ?_ _ _ _).trans
    (allSteps_entry _ _ _ _ (((cfg0.win 4).blk t).view.emb j) _ _ _ ?_ ?_ ?_).symm
  · -- the token block: rows [256·q, 256·q + 256) of the sequence
    intro bi r k
    show V m c main_arg0 (((cfg0.win 0).blk t).view.emb (ix3 bi r k)) = _
    rw [V_main_arg0]
    refine congrArg (m ((c : Thread nD τ).loc main_arg0)) (funext fun a => Fin.ext ?_)
    match a with
    | ⟨0, _⟩ => show win0_0.index t (0 : Fin 3) * 4 + 1 * bi.val = bi.val; omega
    | ⟨1, _⟩ => show win0_0.index t (1 : Fin 3) * 256 + 1 * r.val = win0_4.index t (0 : Fin 3) * 256 + r.val; omega
    | ⟨2, _⟩ => show win0_0.index t (2 : Fin 3) * 1024 + 1 * k.val = k.val; omega
  · -- the weights, whole
    intro e k
    show V m c main_arg2 (((cfg0.win 1).blk t).view.emb (ix2 e k)) = _
    rw [V_main_arg2]
    refine congrArg (m ((c : Thread nD τ).loc main_arg2)) (funext fun a => Fin.ext ?_)
    match a with
    | ⟨0, _⟩ => show win0_1.index t (0 : Fin 2) * 16 + 1 * e.val = e.val; omega
    | ⟨1, _⟩ => show win0_1.index t (1 : Fin 2) * 1024 + 1 * k.val = k.val; omega
  · -- the prior row
    intro e
    show V m c main_v0 (((cfg0.win 2).blk t).view.emb (ix2 0 e)) = _
    rw [prior_arr]
    exact asRow_apply _ _ e (by show win0_2.index t (0 : Fin 2) * 1 + 1 * 0 = 0; omega)
      (by show win0_2.index t (1 : Fin 2) * 16 + 1 * e.val = e.val; omega)
  · -- the bias row
    intro e
    show V m c main_v1 (((cfg0.win 3).blk t).view.emb (ix2 0 e)) = _
    rw [bias_arr]
    exact asRow_apply _ _ e (by show win0_3.index t (0 : Fin 2) * 1 + 1 * 0 = 0; omega)
      (by show win0_3.index t (1 : Fin 2) * 16 + 1 * e.val = e.val; omega)
  · show win0_4.index t (0 : Fin 3) * 256 + 1 * (j 0).val = win0_4.index t (0 : Fin 3) * 256 + (j 0).val; omega
  · show win0_4.index t (1 : Fin 3) * 4 + 1 * (j 1).val = (j 1).val; omega
  · show win0_4.index t (2 : Fin 3) * 16 + 1 * (j 2).val = (j 2).val; omega

/-! ## The cover, and the array after the region -/

/-- An index of the result is in point t's block iff each coordinate is in the block's range on its axis. -/
theorem mem_blk (t : Fin cfg0.N) (i : S2048x4x16.Idx) :
    i ∈ ((cfg0.win 4).blk t).view.set ↔ ∀ a : Fin 3, win0_4.index t a * S256x4x16.size a ≤ (i a).val
      ∧ (i a).val < win0_4.index t a * S256x4x16.size a + S256x4x16.size a := by
  show i ∈ ((View.whole main_v2).slice (win0_4.rect t)).set ↔ _
  rw [View.set_slice_whole, Rect.mem_set_unit]
  exact Iff.rfl

/-- Every index of the result is in the block of the point whose band holds its timestep. -/
theorem cover (i : S2048x4x16.Idx) :
    ∃ t : Fin cfg0.N, (cfg0.win 4).flush t = true ∧ i ∈ ((cfg0.win 4).blk t).view.set := by
  have hi0 : (i 0).val < 2048 := (i 0).isLt
  have hi1 : (i 1).val < 4 := (i 1).isLt
  have hi2 : (i 2).val < 16 := (i 2).isLt
  obtain ⟨t, ht⟩ := idx_onto ⟨(i 0).val / 256, by omega⟩
  have q0 : win0_4.index t (0 : Fin 3) = (i 0).val / 256 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 256 ≤ (i 0).val ∧ (i 0).val < win0_4.index t (0 : Fin 3) * 256 + 256
    omega
  | ⟨1, _⟩ =>
    show win0_4.index t (1 : Fin 3) * 4 ≤ (i 1).val ∧ (i 1).val < win0_4.index t (1 : Fin 3) * 4 + 4
    omega
  | ⟨2, _⟩ =>
    show win0_4.index t (2 : Fin 3) * 16 ≤ (i 2).val ∧ (i 2).val < win0_4.index t (2 : Fin 3) * 16 + 16
    omega

/-- THE ARRAY after the region: the logits of every timestep. -/
theorem final (c : Dev nD) :
    (dats m 0 c).arrAt 4 cfg0.N
      = allSteps (m ((c : Thread nD τ).loc main_arg0)) (m ((c : Thread nD τ).loc main_arg2))
          (m ((c : Thread nD τ).loc main_arg1)) (m ((c : Thread nD τ).loc main_arg3)) :=
  (dats m 0 c).arrAt_eq_of_cover 4 _ (fun t _ => flushed_eq m c t) cover

end Cert.Router.Array

end
-- ==== Proof.KernelRun.lean ====
/-
  The idealized kernel's run, read.

  After the region the program slices timestep 0 off the [2048, 4, 16] array it produced.  The array is `allSteps` of
  the arguments, so the result is `nextSteps`: entry (t, bi, e) is the logit of timestep 1 + t.  The arguments are
  never written: the sequence and the weights are input arrays of the region, the prior and bias vectors are touched by
  no line before or after it.
-/
import proofs.«100767_g24249385353843_cont_9to1_321_3_alg».proof.Proof.Gen.KernelIdeal.Frame
import proofs.«100767_g24249385353843_cont_9to1_321_3_alg».proof.Proof.KernelArray
import proofs.«100767_g24249385353843_cont_9to1_321_3_alg».proof.Proof.Spec
import Idealize.ShloMosaic.Lib.Pipeline.Value
import Idealize.ShloMosaic.Lib.StableHlo.Run

set_option maxRecDepth 16384

noncomputable section

namespace Cert.Router.Run

open Idealize.ShloMosaic Idealize.ShloMosaic.TcCoe Idealize.ShloMosaic.ValueIdx Idealize.SL.Sem
open Cert.KernelIdeal Cert.KernelIdeal.Gen Cert.Router Cert.Router.Array

variable (m : (ℓ : Loc nD τ sig) → Buf (Elt Ideal) ℓ) (ρ : Dev nD → PrngReg)

/-- The sliced array at (t, bi, e) is the whole array at (1 + t, bi, e). -/
theorem tail_apply (X : S2048x4x16.Idx → EReal) (i : S2047x4x16.Idx) :
    extractStridedSlice S2047x4x16 ![1, 0, 0] X Facts₀.slices_S2048x4x16_S2047x4x16_1_0_0 i
      = X (ix3 (⟨1 + (i 0).val, by have h : (i 0).val < 2047 := (i 0).isLt; omega⟩ : Fin 2048) (i 1) (i 2)) :=
  extractStridedSlice_apply ![1, 0, 0] X Facts₀.slices_S2048x4x16_S2047x4x16_1_0_0 i _ (fun a => match a with
    | ⟨0, _⟩ => by show 1 + (i 0).val = 1 + (i 0).val; rfl
    | ⟨1, _⟩ => by show (i 1).val = 0 + (i 1).val; omega
    | ⟨2, _⟩ => by show (i 2).val = 0 + (i 2).val; omega)

/-- THE RESULT: what the line after the region leaves in the result buffer is `nextSteps` of the arguments. -/
theorem result_eq (c : Dev nD) :
    Pipeline.afterTail₀ cfgs (dats m) 0 (V0 m) [hostOps1] c main_v3
      = nextSteps (m ((c : Thread nD τ).loc main_arg0)) (m ((c : Thread nD τ).loc main_arg2))
          (m ((c : Thread nD τ).loc main_arg1)) (m ((c : Thread nD τ).loc main_arg3)) := by
  unfold Pipeline.afterTail₀
  show StableHlo.after hostOps1 _ (Proc.devRef .tc main_v3) = _
  after_results
  rw [show Pipeline.withArrays spec0 c (V0 m c) (fun w => (dats m 0 c).arrAt w cfg0.N) (Proc.devRef .tc main_v2) = _ from
    (Pipeline.withArrays_arr spec0 launch0.win.arr_inj c _ _ 4).trans (final m c)]
  funext i
  rw [tail_apply]
  exact allSteps_shift _ _ _ _ i _ rfl rfl rfl

/-- The frame run re-posted: the result buffer at `nextSteps` of the arguments, the arguments unchanged. -/
theorem run : θ_run defs (onTc (τ := τ) (main (F := Ideal))) ⟨m, fun _ => 0, ρ⟩ fun r => ∀ c : Dev nD,
      r.2.mem ((c.tc : Thread nD τ).loc main_v3)
        = nextSteps (m ((c : Thread nD τ).loc main_arg0)) (m ((c : Thread nD τ).loc main_arg2))
            (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.Router.Run

end
-- ==== Proof.lean ====
/-
  Routing logits: the kernel against its reference, over the extended reals.

  Both programs take a token sequence seq[B, T, D], expert weight rows W[E, D], a bias b[E] and a prior pi[E]
  (B = 4, T = 2048, D = 1024, E = 16) and return, for every timestep after the first, the logits
      out[t, bi, e] = (Σ_d seq[bi, 1 + t, d] · W[e, d] + b[e]) · pi[e]          (t < T − 1).
  The kernel walks the time axis in eight bands of 256 timesteps; in each band, for each batch row, it multiplies
  the row's [256, D] tile by Wᵀ into a zero accumulator, adds the bias row, scales by the prior row, and stores the
  [256, E] result into the band's [256, B, E] block; the program then drops timestep 0 of the [T, B, E] array.  The
  reference drops timestep 0 of the sequence, contracts the feature axis, adds the bias, scales by the prior, and
  transposes [B, T − 1, E] to [T − 1, B, E].
  At the ideal instance a matrix product into a zero accumulator and a `dot_general` are the same finite sum, so the
  two results are the same expression entry by entry (`Cert.Router.nextSteps`): no rearrangement of the sum and no
  distributive step is involved, and the precondition (finite inputs) is not used.
  The idealization rewrote nothing, so `preserves` is trivial.  The two kernel frames are the generated ones; the
  reference's frame is its run with the result dropped.
-/
import proofs.«100767_g24249385353843_cont_9to1_321_3_alg».proof.Defs
import proofs.«100767_g24249385353843_cont_9to1_321_3_alg».proof.Proof.Gen.Kernel
import proofs.«100767_g24249385353843_cont_9to1_321_3_alg».proof.Proof.Gen.Kernel.Skeleton
import proofs.«100767_g24249385353843_cont_9to1_321_3_alg».proof.Proof.Gen.Kernel.Launch
import proofs.«100767_g24249385353843_cont_9to1_321_3_alg».proof.Proof.Gen.Kernel.Points
import proofs.«100767_g24249385353843_cont_9to1_321_3_alg».proof.Proof.Gen.Kernel.Frame
import proofs.«100767_g24249385353843_cont_9to1_321_3_alg».proof.Proof.Gen.KernelIdeal
import proofs.«100767_g24249385353843_cont_9to1_321_3_alg».proof.Proof.Gen.KernelIdeal.Skeleton
import proofs.«100767_g24249385353843_cont_9to1_321_3_alg».proof.Proof.Gen.KernelIdeal.Launch
import proofs.«100767_g24249385353843_cont_9to1_321_3_alg».proof.Proof.Gen.KernelIdeal.Points
import proofs.«100767_g24249385353843_cont_9to1_321_3_alg».proof.Proof.Gen.KernelIdeal.Frame
import proofs.«100767_g24249385353843_cont_9to1_321_3_alg».proof.Proof.Gen.ReferenceIdeal
import proofs.«100767_g24249385353843_cont_9to1_321_3_alg».proof.Proof.Gen.Pre_finite_inputs
import Idealize.ShloMosaic.Adequacy
import Idealize.ShloMosaic.Init
import proofs.«100767_g24249385353843_cont_9to1_321_3_alg».proof.Proof.Gen.ReferenceIdeal.Run
import proofs.«100767_g24249385353843_cont_9to1_321_3_alg».proof.Proof.Gen.ReferenceIdeal.Read
import proofs.«100767_g24249385353843_cont_9to1_321_3_alg».proof.Proof.Spec
import proofs.«100767_g24249385353843_cont_9to1_321_3_alg».proof.Proof.RefSide
import proofs.«100767_g24249385353843_cont_9to1_321_3_alg».proof.Proof.KernelRun

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the four arguments both programs end with `nextSteps` of them. -/
theorem algebraic : Cert.algebraic_KernelIdeal_ReferenceIdeal := by
  intro m ρ m' ρ' _ hagree
  refine ⟨_, Cert.Router.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.Router.Ref.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
